-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S500000x128 : Shape := ⟨2, ![500000, 128]⟩
abbrev S500000x42 : Shape := ⟨2, ![500000, 42]⟩
abbrev S500000 : Shape := ⟨1, ![500000]⟩
abbrev S42x128 : Shape := ⟨2, ![42, 128]⟩
abbrev S128 : Shape := ⟨1, ![128]⟩
abbrev S512x128 : Shape := ⟨2, ![512, 128]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S500000x42 : S_.BroadcastsInDim S500000x42 (![] : Fin 0 → Fin S500000x42.rank)
  reducesTo_S500000x42_S_d0_1 : S500000x42.ReducesTo [0, 1] S_
  bcast_S_S42x128 : S_.BroadcastsInDim S42x128 (![] : Fin 0 → Fin S42x128.rank)
  reducesTo_S42x128_S_d0_1 : S42x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg4 : IVec S500000 32) (main_v50 : IVec S_ 1) : IVec S_ 1 :=
  let main_c_19 : IVec S_ 32 := constantI S_ 32 4294767296#32
  let main_v51 : IVec S500000 32 := broadcastInDim S500000 ![] bcast_S_S500000 main_c_19
  let main_v52 : IVec S500000 1 := cmpi .sge main_arg4 main_v51
  let main_c_20 : IVec S_ 32 := constantI S_ 32 200000#32
  let main_v53 : IVec S500000 32 := broadcastInDim S500000 ![] bcast_S_S500000 main_c_20
  let main_v54 : IVec S500000 1 := cmpi .slt main_arg4 main_v53
  let main_v55 : IVec S500000 1 := andi main_v52 main_v54
  let main_c_21 : IVec S_ 1 := constantI S_ 1 1#1
  let main_v56 : IVec S_ 1 := (fun x v => Host.reduce IntOp.andi x v reducesTo_S500000_S_d0 h_S_) main_v55 main_c_21
  let main_v57 : IVec S_ 1 := andi main_v50 main_v56
  main_v57

def fn_part2 {F : FTy → Type} [FloatOps F] (main_arg3 : IVec S500000 32) (main_arg4 : IVec S500000 32) (main_arg9 : FVec F S1 .f32) (main_arg10 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 4294767296#32
  let main_v44 : IVec S500000 32 := broadcastInDim S500000 ![] bcast_S_S500000 main_c_16
  let main_v45 : IVec S500000 1 := cmpi .sge main_arg3 main_v44
  let main_c_17 : IVec S_ 32 := constantI S_ 32 200000#32
  let main_v46 : IVec S500000 32 := broadcastInDim S500000 ![] bcast_S_S500000 main_c_17
  let main_v47 : IVec S500000 1 := cmpi .slt main_arg3 main_v46
  let main_v48 : IVec S500000 1 := andi main_v45 main_v47
  let main_c_18 : IVec S_ 1 := constantI S_ 1 1#1
  let main_v49 : IVec S_ 1 := (fun x v => Host.reduce IntOp.andi x v reducesTo_S500000_S_d0 h_S_) main_v48 main_c_18
  let main_v50 : IVec S_ 1 := andi main_v43 main_v49
  fn_part3 (F := F) main_arg4 main_v50

def fn_part1 {F : FTy → Type} [FloatOps F] (main_arg3 : IVec S500000 32) (main_arg4 : IVec S500000 32) (main_arg6 : FVec F S128 .f32) (main_arg7 : FVec F S512x128 .f32) (main_arg8 : FVec F S128 .f32) (main_arg9 : FVec F S1 .f32) (main_arg10 : FVec F S1 .f32) (main_v13 : IVec S_ 1) (main_v16 : IVec S42x128 1) : IVec S_ 1 :=
  let main_c_5 : IVec S_ 1 := constantI S_ 1 1#1
  let main_v17 : IVec S_ 1 := (fun x v => Host.reduce IntOp.andi x v reducesTo_S42x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_v33

def fn {F : FTy → Type} [FloatOps F] (main_arg0 : FVec F S200000x128 .f32) (main_arg1 : FVec F S500000x128 .f32) (main_arg2 : FVec F S500000x42 .f32) (main_arg3 : IVec S500000 32) (main_arg4 : IVec S500000 32) (main_arg5 : FVec F S42x128 .f32) (main_arg6 : FVec F S128 .f32) (main_arg7 : FVec F S512x128 .f32) (main_arg8 : FVec F S128 .f32) (main_arg9 : FVec F S1 .f32) (main_arg10 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x42 .f32 := Host.absf main_arg2
  let main_cst_2 : FVec F S_ .f32 := constant S_ .f32 0x7F800000#32
  let main_v10 : FVec F S500000x42 .f32 := broadcastInDim S500000x42 ![] bcast_S_S500000x42 main_cst_2
  let main_v11 : IVec S500000x42 1 := cmpf .olt main_v9 main_v10
  let main_c_3 : IVec S_ 1 := constantI S_ 1 1#1
  let main_v12 : IVec S_ 1 := (fun x v => Host.reduce IntOp.andi x v reducesTo_S500000x42_S_d0_1 h_S_) main_v11 main_c_3
  let main_v13 : IVec S_ 1 := andi main_v8 main_v12
  let main_v14 : FVec F S42x128 .f32 := Host.absf main_arg5
  let main_cst_4 : FVec F S_ .f32 := constant S_ .f32 0x7F800000#32
  let main_v15 : FVec F S42x128 .f32 := broadcastInDim S42x128 ![] bcast_S_S42x128 main_cst_4
  let main_v16 : IVec S42x128 1 := cmpf .olt main_v14 main_v15
  fn_part1 (F := F) main_arg3 main_arg4 main_arg6 main_arg7 main_arg8 main_arg9 main_arg10 main_v13 main_v16
-- ==== Kernel.lean ====
abbrev S200000x128 : Shape := ⟨2, ![200000, 128]⟩
abbrev S500000x128 : Shape := ⟨2, ![500000, 128]⟩
abbrev S500000x42 : Shape := ⟨2, ![500000, 42]⟩
abbrev S500000 : Shape := ⟨1, ![500000]⟩
abbrev S42x128 : Shape := ⟨2, ![42, 128]⟩
abbrev S128 : Shape := ⟨1, ![128]⟩
abbrev S512x128 : Shape := ⟨2, ![512, 128]⟩
abbrev S1 : Shape := ⟨1, ![1]⟩
abbrev S_ : Shape := ⟨0, ![]⟩
abbrev S500000x1 : Shape := ⟨2, ![500000, 1]⟩
abbrev S1x1 : Shape := ⟨2, ![1, 1]⟩
abbrev S1x128 : Shape := ⟨2, ![1, 128]⟩
abbrev S2000x128 : Shape := ⟨2, ![2000, 128]⟩
abbrev S2000x42 : Shape := ⟨2, ![2000, 42]⟩
abbrev S128x128 : Shape := ⟨2, ![128, 128]⟩

abbrev nBuf : Space → Nat
  | .hbm => 62
  | .vmem => 16
  | .smem => 0
  | _ => 0

abbrev bufTy : (tb : Table) → Fin (tcTables nBuf tb) → BufTy
  | .hbm, ⟨0, _⟩ => ⟨S200000x128, .f32⟩
  | .hbm, ⟨1, _⟩ => ⟨S500000x128, .f32⟩
  | .hbm, ⟨2, _⟩ => ⟨S500000x42, .f32⟩
  | .hbm, ⟨3, _⟩ => ⟨S500000, .i32⟩
  | .hbm, ⟨4, _⟩ => ⟨S500000, .i32⟩
  | .hbm, ⟨5, _⟩ => ⟨S42x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S1, .f32⟩
  | .hbm, ⟨10, _⟩ => ⟨S1, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x128, .f32⟩
  | .hbm, ⟨30, _⟩ => ⟨S500000x128, .i1⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x128, .f32⟩
  | .hbm, ⟨53, _⟩ => ⟨S500000x128, .i1⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S1x128, .f32⟩
  | .hbm, ⟨58, _⟩ => ⟨S1x128, .f32⟩
  | .hbm, ⟨59, _⟩ => ⟨S1x1, .f32⟩
  | .hbm, ⟨60, _⟩ => ⟨S1x1, .f32⟩
  | .hbm, ⟨61, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x42, .f32⟩
  | .local _ .vmem, ⟨7, _⟩ => ⟨S2000x42, .f32⟩
  | .local _ .vmem, ⟨8, _⟩ => ⟨S42x128, .f32⟩
  | .local _ .vmem, ⟨9, _⟩ => ⟨S1x128, .f32⟩
  | .local _ .vmem, ⟨10, _⟩ => ⟨S512x128, .f32⟩
  | .local _ .vmem, ⟨11, _⟩ => ⟨S1x128, .f32⟩
  | .local _ .vmem, ⟨12, _⟩ => ⟨S1x1, .f32⟩
  | .local _ .vmem, ⟨13, _⟩ => ⟨S1x1, .f32⟩
  | .local _ .vmem, ⟨14, _⟩ => ⟨S2000x128, .f32⟩
  | .local _ .vmem, ⟨15, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x42 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S42x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S128_S1x128 : S128.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x128_S2000x128_0_0 : ∀ a, (![0, 0] : Fin 2 → Nat) a + S2000x128.size a ≤ S2000x128.size a
  h_S2000x128 : 0 < S2000x128.numel
  inb_S2000x42_S2000x42_0_0 : ∀ a, (![0, 0] : Fin 2 → Nat) a + S2000x42.size a ≤ S2000x42.size a
  h_S2000x42 : 0 < S2000x42.numel
  bitsLt_bf16_f32 : FTy.bits .bf16 < FTy.bits .f32
  inb_S42x128_S42x128_0_0 : ∀ a, (![0, 0] : Fin 2 → Nat) a + S42x128.size a ≤ S42x128.size a
  h_S42x128 : 0 < S42x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S512x128_S128x128_0_0 : ∀ a, (![0, 0] : Fin 2 → Nat) a + S128x128.size a ≤ S512x128.size a
  h_S128x128 : 0 < S128x128.numel
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  gather_S200000x128_S500000x1_S500000x128_1_0_n_n_0_1_1128_wf : GatherDims.WF S200000x128 S500000x1 S500000x128 [1] [0] [] [0] [] 1 ![1, 128]
  dot_S2000x42_S42x128_S2000x128_1_0_0_1_n_n_wf : DotDims.WF S2000x42 S42x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x42.size a ≤ S500000x42.size a
  hwx0_3 : ∀ i : grid0.Coords, EltTy.bits .f32 = 32 ∨ (Rect.block (s := S500000x42) S2000x42.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S42x128.size a ≤ S42x128.size a
  hwx0_4 : ∀ i : grid0.Coords, EltTy.bits .f32 = 32 ∨ (Rect.block (s := S42x128) S42x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S500000x128.size a
  hwx0_10 : ∀ i : grid0.Coords, EltTy.bits .f32 = 32 ∨ (Rect.block (s := S500000x128) S2000x128.size (cc0_transform_10 i) (hinb0_10 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def dot_S2000x42_S42x128_S2000x128_1_0_0_1_n_n : DotDims S2000x42 S42x128 S2000x128 where
  lhsContracting := [1]
  rhsContracting := [0]
  lhsNonContracting := [0]
  rhsNonContracting := [1]
  lhsBatch := []
  rhsBatch := []
  wf := dot_S2000x42_S42x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x42.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S42x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x128 : Shape := ⟨2, ![200000, 128]⟩
abbrev S500000x128 : Shape := ⟨2, ![500000, 128]⟩
abbrev S500000x42 : Shape := ⟨2, ![500000, 42]⟩
abbrev S500000 : Shape := ⟨1, ![500000]⟩
abbrev S42x128 : Shape := ⟨2, ![42, 128]⟩
abbrev S128 : Shape := ⟨1, ![128]⟩
abbrev S512x128 : Shape := ⟨2, ![512, 128]⟩
abbrev S1 : Shape := ⟨1, ![1]⟩
abbrev S1x1 : Shape := ⟨2, ![1, 1]⟩
abbrev S_ : Shape := ⟨0, ![]⟩
abbrev S1x128 : Shape := ⟨2, ![1, 128]⟩
abbrev S500000x1 : Shape := ⟨2, ![500000, 1]⟩
abbrev S500000x512 : Shape := ⟨2, ![500000, 512]⟩

abbrev nBuf : Space → Nat
  | .hbm => 71
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S500000x128, .f32⟩
  | .hbm, ⟨2, _⟩ => ⟨S500000x42, .f32⟩
  | .hbm, ⟨3, _⟩ => ⟨S500000, .i32⟩
  | .hbm, ⟨4, _⟩ => ⟨S500000, .i32⟩
  | .hbm, ⟨5, _⟩ => ⟨S42x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S500000x128, .f32⟩
  | .hbm, ⟨13, _⟩ => ⟨S500000x128, .f32⟩
  | .hbm, ⟨14, _⟩ => ⟨S1x1, .f32⟩
  | .hbm, ⟨15, _⟩ => ⟨S500000x128, .f32⟩
  | .hbm, ⟨16, _⟩ => ⟨S500000x128, .f32⟩
  | .hbm, ⟨17, _⟩ => ⟨S500000x128, .f32⟩
  | .hbm, ⟨18, _⟩ => ⟨S500000x128, .f32⟩
  | .hbm, ⟨19, _⟩ => ⟨S_, .f32⟩
  | .hbm, ⟨20, _⟩ => ⟨S500000x128, .f32⟩
  | .hbm, ⟨21, _⟩ => ⟨S500000x128, .f32⟩
  | .hbm, ⟨22, _⟩ => ⟨S_, .f32⟩
  | .hbm, ⟨23, _⟩ => ⟨S500000x128, .f32⟩
  | .hbm, ⟨24, _⟩ => ⟨S500000x128, .f32⟩
  | .hbm, ⟨25, _⟩ => ⟨S500000x128, .f32⟩
  | .hbm, ⟨26, _⟩ => ⟨S500000x128, .f32⟩
  | .hbm, ⟨27, _⟩ => ⟨S1x128, .f32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S500000x512, .f32⟩
  | .hbm, ⟨58, _⟩ => ⟨S500000x128, .f32⟩
  | .hbm, ⟨59, _⟩ => ⟨S1x128, .f32⟩
  | .hbm, ⟨60, _⟩ => ⟨S500000x128, .f32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S500000x128, .f32⟩
  | .hbm, ⟨66, _⟩ => ⟨S500000x128, .f32⟩
  | .hbm, ⟨67, _⟩ => ⟨S_, .f32⟩
  | .hbm, ⟨68, _⟩ => ⟨S500000x128, .f32⟩
  | .hbm, ⟨69, _⟩ => ⟨S500000x128, .f32⟩
  | .hbm, ⟨70, _⟩ => ⟨S500000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S500000x128_0_1 : S1x1.BroadcastsInDim S500000x128 (![0, 1] : Fin 2 → Fin S500000x128.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x128_S500000x512_d1 : Shape.Concatenates [S500000x128, S500000x128, S500000x128, S500000x128] S500000x512 1
  dot_S500000x42_S42x128_S500000x128_1_0_0_1_n_n_wf : DotDims.WF S500000x42 S42x128 S500000x128 [1] [0] [0] [1] [] []
  gather_S200000x128_S500000x1_S500000x128_1_0_n_n_0_1_1128_wf : GatherDims.WF S200000x128 S500000x1 S500000x128 [1] [0] [] [0] [] 1 ![1, 128]
  dot_S500000x512_S512x128_S500000x128_1_0_0_1_n_n_wf : DotDims.WF S500000x512 S512x128 S500000x128 [1] [0] [0] [1] [] []

variable [Facts₀]

def dot_S500000x42_S42x128_S500000x128_1_0_0_1_n_n : DotDims S500000x42 S42x128 S500000x128 where
  lhsContracting := [1]
  rhsContracting := [0]
  lhsNonContracting := [0]
  rhsNonContracting := [1]
  lhsBatch := []
  rhsBatch := []
  wf := dot_S500000x42_S42x128_S500000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The edge update both programs compute, one output row at a time.

  For a triplet row with gathered edge rows `ej`, `ek` (128 entries each), an area row `ar` (128) and a basis row `sb` (42):
    a_k   = swish (ar_k · w1 + b1)                              (a scalar affine map, then swish)
    s_k   = swish (Σ_j sb_j · Ws_{j,k} + bs_k)                  (a 42-wide contraction, a bias, then swish)
    pre_q = Σ_k ej_k · W_{k,q} + Σ_k ek_k · W_{128+k,q} + Σ_k a_k · W_{256+k,q} + Σ_k s_k · W_{384+k,q} + bl_q
    out_q = swish pre_q,        swish x = x · 1 / (1 + e^(-x)).
  One side contracts the four 128-wide bands of the 512-row weight `W` one by one; the other lays the four rows end to end
  and contracts once over 512. The two agree because a sum over 512 positions is the sum of its four bands of 128
  (`sum_bands`), a fact of commutative monoids: no finiteness of the summands is needed, so it holds on the extended reals.

  Also here: a four-piece concatenation along the second axis read at band `b`, position `k`; and the arithmetic of a
  python-style start index — a signed 32-bit word in [-200000, 200000), 200000 added when negative, lands in [0, 199999].
-/
import Mathlib.Algebra.BigOperators.Fin
import Mathlib.Logic.Equiv.Fin.Basic
import Idealize.ShloMosaic.PureOps.Ideal
import Idealize.ShloMosaic.PureOps.Ideal.Laws
import Idealize.ShloMosaic.Lib.ValueIdx
import Idealize.ShloMosaic.Lib.Pipeline.Value
import proofs.«417366_j55387898250014_1_alg».proof.Proof.LibRowDims

noncomputable section

open scoped BigOperators

namespace Cert.EdgeUpdate

open Idealize.ShloMosaic Idealize.ShloMosaic.ValueIdx

/-! ## The row function -/

/-- `x · σ(x)`, with `σ(x) = 1 / (1 + e^(-x))` on the extended reals. -/
def swish (x : EReal) : EReal := x * Ideal.logistic x

/-- Position `k` of band `b` among 512 positions cut into four bands of 128: position `128 b + k`. -/
def band (b : Fin 4) (k : Fin 128) : Fin 512 := finProdFinEquiv (b, k)

theorem band_val (b : Fin 4) (k : Fin 128) : (band b k).val = k.val + 128 * b.val := rfl

/-- The pre-activation of output entry `q` of one row: the four band contractions, added from the left, then the bias. -/
def rowPre (ej ek ar : Fin 128 → EReal) (sb : Fin 42 → EReal) (ws : Fin 42 → Fin 128 → EReal) (bs : Fin 128 → EReal)
    (wl : Fin 512 → Fin 128 → EReal) (bl : Fin 128 → EReal) (w1 b1 : EReal) (q : Fin 128) : EReal :=
  (((∑ k : Fin 128, ej k * wl (band 0 k) q) + (∑ k : Fin 128, ek k * wl (band 1 k) q))
      + (∑ k : Fin 128, swish (ar k * w1 + b1) * wl (band 2 k) q))
      + (∑ k : Fin 128, swish ((∑ j : Fin 42, sb j * ws j k) + bs k) * wl (band 3 k) q)
    + bl q

/-- Output entry `q` of one row. -/
def rowOut (ej ek ar : Fin 128 → EReal) (sb : Fin 42 → EReal) (ws : Fin 42 → Fin 128 → EReal) (bs : Fin 128 → EReal)
    (wl : Fin 512 → Fin 128 → EReal) (bl : Fin 128 → EReal) (w1 b1 : EReal) (q : Fin 128) : EReal :=
  swish (rowPre ej ek ar sb ws bs wl bl w1 b1 q)

/-! ## A sum over 512 positions by bands -/

/-- A sum over 512 positions is the sum over its four bands of 128, the bands added from the left. -/
theorem sum_bands {M : Type*} [AddCommMonoid M] (f : Fin 512 → M) :
    ∑ k : Fin 512, f k
      = ((∑ k : Fin 128, f (band 0 k) + ∑ k : Fin 128, f (band 1 k)) + ∑ k : Fin 128, f (band 2 k))
          + ∑ k : Fin 128, f (band 3 k) := by
  -- positions are pairs (band, place in the band)
  refine (Equiv.sum_comp (finProdFinEquiv (m := 4) (n := 128)) f).symm.trans ?_
  rw [Fintype.sum_prod_type, Fin.sum_univ_four]
  rfl

/-! ## Four pieces laid end to end along the second axis -/

/-- Four `[R, 128]` pieces joined along the second axis into `[R, 512]`, read at row `r`, band `b`, place `k`:
    piece `b` at `(r, k)`. -/
theorem concat4_apply {α : Type} {R : Nat} (x0 x1 x2 x3 : (⟨2, ![R, 128]⟩ : Shape).Idx → α)
    (h : Shape.Concatenates [(⟨2, ![R, 128]⟩ : Shape), ⟨2, ![R, 128]⟩, ⟨2, ![R, 128]⟩, ⟨2, ![R, 128]⟩] ⟨2, ![R, 512]⟩ 1)
    (r : Fin R) (b : Fin 4) (k : Fin 128) :
    concatenate (⟨2, ![R, 512]⟩ : Shape) 1 [⟨⟨2, ![R, 128]⟩, x0⟩, ⟨⟨2, ![R, 128]⟩, x1⟩, ⟨⟨2, ![R, 128]⟩, x2⟩, ⟨⟨2, ![R, 128]⟩, x3⟩] h
        (ix2 r (band b k))
      = (match b with | 0 => x0 | 1 => x1 | 2 => x2 | 3 => x3) (ix2 r k) := by
  -- off the joined axis the coordinates agree; on it the place is the position less the bands before
  have hi : ∀ c : Fin 2, c.cast (rfl : (2 : Nat) = 2) ≠ (1 : Fin 2) →
      ((ix2 r k : (⟨2, ![R, 128]⟩ : Shape).Idx) c).val = ((ix2 r (band b k) : (⟨2, ![R, 512]⟩ : Shape).Idx) (c.cast rfl)).val := by
    intro c hc
    match c with
    | ⟨0, _⟩ => rfl
    | ⟨1, _⟩ => exact absurd rfl hc
  match b with
  | 0 =>
    exact concatenate_apply_piece (t := ⟨2, ![R, 512]⟩) 1
      [⟨⟨2, ![R, 128]⟩, x0⟩, ⟨⟨2, ![R, 128]⟩, x1⟩, ⟨⟨2, ![R, 128]⟩, x2⟩, ⟨⟨2, ![R, 128]⟩, x3⟩] h (ix2 r (band 0 k))
      0 (by show (0 : Nat) < 4; omega) ⟨2, ![R, 128]⟩ x0 rfl rfl 0 rfl (ix2 r k) hi (by show 0 + k.val = k.val + 128 * 0; omega)
  | 1 =>
    exact concatenate_apply_piece (t := ⟨2, ![R, 512]⟩) 1
      [⟨⟨2, ![R, 128]⟩, x0⟩, ⟨⟨2, ![R, 128]⟩, x1⟩, ⟨⟨2, ![R, 128]⟩, x2⟩, ⟨⟨2, ![R, 128]⟩, x3⟩] h (ix2 r (band 1 k))
      1 (by show (1 : Nat) < 4; omega) ⟨2, ![R, 128]⟩ x1 rfl rfl 128 rfl (ix2 r k) hi (by show 128 + k.val = k.val + 128 * 1; omega)
  | 2 =>
    exact concatenate_apply_piece (t := ⟨2, ![R, 512]⟩) 1
      [⟨⟨2, ![R, 128]⟩, x0⟩, ⟨⟨2, ![R, 128]⟩, x1⟩, ⟨⟨2, ![R, 128]⟩, x2⟩, ⟨⟨2, ![R, 128]⟩, x3⟩] h (ix2 r (band 2 k))
      2 (by show (2 : Nat) < 4; omega) ⟨2, ![R, 128]⟩ x2 rfl rfl 256 rfl (ix2 r k) hi (by show 256 + k.val = k.val + 128 * 2; omega)
  | 3 =>
    exact concatenate_apply_piece (t := ⟨2, ![R, 512]⟩) 1
      [⟨⟨2, ![R, 128]⟩, x0⟩, ⟨⟨2, ![R, 128]⟩, x1⟩, ⟨⟨2, ![R, 128]⟩, x2⟩, ⟨⟨2, ![R, 128]⟩, x3⟩] h (ix2 r (band 3 k))
      3 (by show (3 : Nat) < 4; omega) ⟨2, ![R, 128]⟩ x3 rfl rfl 384 rfl (ix2 r k) hi (by show 384 + k.val = k.val + 128 * 3; omega)

/-! ## A python-style start index -/

/-- The start index as both programs compute it: `v + 200000` when `v` is negative, else `v`. -/
def wrap (v : BitVec 32) : BitVec 32 := Scalar.select (IntOp.cmpi .slt v 0#32) (IntOp.addi v 200000#32) v

/-- A word in [-200000, 200000) wraps into [0, 199999]. (`4294767296` is the 32-bit word of -200000.) -/
theorem wrap_inRange (v : BitVec 32) (hlo : (4294767296#32).sle v = true) (hhi : v.slt 200000#32 = true) :
    (0#32).sle (wrap v) = true ∧ (wrap v).sle 199999#32 = true := by
  -- read every comparison on the signed values
  have c0 : (0#32 : BitVec 32).toInt = 0 := by decide
  have c1 : (200000#32 : BitVec 32).toInt = 200000 := by decide
  have c2 : (199999#32 : BitVec 32).toInt = 199999 := by decide
  have c3 : (4294767296#32 : BitVec 32).toInt = -200000 := by decide
  simp only [BitVec.sle, BitVec.slt, decide_eq_true_eq, c1, c3] at hlo hhi
  unfold wrap IntOp.cmpi IntOp.addi Scalar.select
  by_cases hneg : v.toInt < 0
  · -- a negative word: 200000 is added, and the sum stays inside the signed range
    have hs : v.slt 0#32 = true := by simp only [BitVec.slt, decide_eq_true_eq, c0]; exact hneg
    have ha : (v + 200000#32).toInt = v.toInt + 200000 := by
      rw [BitVec.toInt_add, c1, Int.bmod_def]
      split <;> omega
    rw [hs, if_pos (by decide : BitVec.ofBool true = (1 : BitVec 1))]
    simp only [BitVec.sle, decide_eq_true_eq, c0, c2, ha]
    constructor <;> omega
  · -- a non-negative word is kept
    have hs : v.slt 0#32 = false := by simp only [BitVec.slt, decide_eq_false_iff_not, c0]; exact hneg
    rw [hs, if_neg (by decide : ¬ BitVec.ofBool false = (1 : BitVec 1))]
    simp only [BitVec.sle, decide_eq_true_eq, c0, c2]
    constructor <;> omega

/-- A word in range: at least -200000 and below 200000, read signed. -/
def InRange (v : BitVec 32) : Prop := (4294767296#32).sle v = true ∧ v.slt 200000#32 = true

/-! ## The whole arrays -/

/-- The rows of the edge table a python-style index vector selects: row `r` of the result is the table's row at the
    wrapped index of `idx r` (read signed and clamped into the table, which changes nothing for an index in range). -/
def gatherRows (e1 : (⟨2, ![200000, 128]⟩ : Shape).Idx → EReal) (idx : IVec ⟨1, ![500000]⟩ 32) :
    (⟨2, ![500000, 128]⟩ : Shape).Idx → EReal :=
  fun i => e1 (ix2 (RowDims.clampRow 200000 (by decide) (wrap (idx (ix1 (i 0))))) (i 1))

/-- The result array from ten arrays laid out as a pipelined kernel stages them: three [500000, 128] row arrays, the
    [500000, 42] basis array, the weights, the biases as [1, 128] rows and the two scalars as [1, 1] cells. -/
def fromWindows (a0 a1 a2 : (⟨2, ![500000, 128]⟩ : Shape).Idx → EReal) (a3 : (⟨2, ![500000, 42]⟩ : Shape).Idx → EReal)
    (a4 : (⟨2, ![42, 128]⟩ : Shape).Idx → EReal) (a5 : (⟨2, ![1, 128]⟩ : Shape).Idx → EReal)
    (a6 : (⟨2, ![512, 128]⟩ : Shape).Idx → EReal) (a7 : (⟨2, ![1, 128]⟩ : Shape).Idx → EReal)
    (a8 a9 : (⟨2, ![1, 1]⟩ : Shape).Idx → EReal) : (⟨2, ![500000, 128]⟩ : Shape).Idx → EReal :=
  fun i => rowOut (fun k => a0 (ix2 (i 0) k)) (fun k => a1 (ix2 (i 0) k)) (fun k => a2 (ix2 (i 0) k))
    (fun j => a3 (ix2 (i 0) j)) (fun j k => a4 (ix2 j k)) (fun k => a5 (ix2 0 k)) (fun k q => a6 (ix2 k q))
    (fun q => a7 (ix2 0 q)) (a8 (ix2 0 0)) (a9 (ix2 0 0)) (i 1)

/-- The result array from the eleven arguments, in their order: the edge table, the area and basis arrays, the two index
    vectors, the basis weight and bias, the 512-row weight and its bias, the two scalars. -/
def edgeUpdate (e1 : (⟨2, ![200000, 128]⟩ : Shape).Idx → EReal) (area : (⟨2, ![500000, 128]⟩ : Shape).Idx → EReal)
    (sbf : (⟨2, ![500000, 42]⟩ : Shape).Idx → EReal) (iji ikj : IVec ⟨1, ![500000]⟩ 32)
    (wsbf : (⟨2, ![42, 128]⟩ : Shape).Idx → EReal) (bsbf : (⟨1, ![128]⟩ : Shape).Idx → EReal)
    (wlin : (⟨2, ![512, 128]⟩ : Shape).Idx → EReal) (blin : (⟨1, ![128]⟩ : Shape).Idx → EReal)
    (w1 b1 : (⟨1, ![1]⟩ : Shape).Idx → EReal) : (⟨2, ![500000, 128]⟩ : Shape).Idx → EReal :=
  fromWindows (gatherRows e1 iji) (gatherRows e1 ikj) area sbf wsbf (fun i => bsbf (ix1 (i 1))) wlin
    (fun i => blin (ix1 (i 1))) (fun _ => w1 (ix1 0)) (fun _ => b1 (ix1 0))

end Cert.EdgeUpdate

end
-- ==== Proof.KernelBlock.lean ====
/-
  One grid point of the kernel, read at an entry.

  The body loads its ten blocks whole — the two gathered edge blocks, the area block and the basis block of the point's
  2000 triplet rows, and the weights, biases and the two scalars —, casts to the narrow float format (the identity on the
  extended reals), and stores one [2000, 128] block. Entry (p, q) of that block is the row function of row p of the row
  blocks: each matrix product into a zero accumulator is the plain sum over the contracted coordinate, the four slices of
  the 512-row weight at row offsets 0, 128, 256, 384 are its four bands, and a [1, 128] bias laid over the rows reads its
  column.
-/
import proofs.«417366_j55387898250014_1_alg».proof.Proof.Gen.KernelIdeal.Frame
import proofs.«417366_j55387898250014_1_alg».proof.Proof.Spec
import proofs.«417366_j55387898250014_1_alg».proof.Proof.LibRowDims
import Idealize.ShloMosaic.Lib.Pipeline.Value
import Idealize.ShloMosaic.Lib.ValueIdx
import Idealize.ShloMosaic.PureOps.Ideal.Laws

noncomputable section

open scoped BigOperators

namespace Cert.EdgeUpdate.Block

open Cert.KernelIdeal Cert.KernelIdeal.Gen Cert.EdgeUpdate
open Idealize.ShloMosaic Idealize.ShloMosaic.ValueIdx Idealize.ShloMosaic.RowDims

/-! ## The narrowing casts and the row blocks -/

/-- The logistic of a block, entry by entry. -/
theorem logistic_apply {s : Shape} {φ : FTy} (x : FVec Ideal s φ) (i : s.Idx) : logistic x i = Ideal.logistic (x i) := rfl

theorem edge_cast_apply (v : Vec Ideal S2000x128 .f32) (i : S2000x128.Idx) : k0_pay2 v i = v i := by
  unfold k0_pay2
  rw [truncf_apply, shapeCast_self]

theorem edge_cast_apply' (v : Vec Ideal S2000x128 .f32) (i : S2000x128.Idx) : k0_pay3 v i = v i := by
  unfold k0_pay3
  rw [truncf_apply, shapeCast_self]

theorem weight_cast0 (v : Vec Ideal S128x128 .f32) (i : S128x128.Idx) : k0_pay6 v i = v i := rfl
theorem weight_cast1 (v : Vec Ideal S128x128 .f32) (i : S128x128.Idx) : k0_pay7 v i = v i := rfl
theorem weight_cast2 (v : Vec Ideal S128x128 .f32) (i : S128x128.Idx) : k0_pay8 v i = v i := rfl

/-- The one entry of a [1, 1] block. -/
theorem extract_cell (v : Vec Ideal S1x1 .f32) : extractAt ![0, 0] v inpos_S1x1_p0_0 = v (ix2 0 0) := by
  unfold extractAt
  refine congrArg v (funext fun a => Fin.ext ?_)
  match a with
  | ⟨0, _⟩ => rfl
  | ⟨1, _⟩ => rfl

/-- A [1, 128] row laid over 2000 rows reads its column. -/
theorem bias_rows_apply (v : Vec Ideal S1x128 .f32) (p : Fin 2000) (q : Fin 128) :
    broadcastTo S2000x128 (shapeCast S1x128 v shapeCasts_S1x128_S1x128) broadcasts_S1x128_S2000x128 (ix2 p q) = v (ix2 0 q) := by
  rw [shapeCast_self]
  refine broadcastTo_apply v _ (ix2 p q) (ix2 0 q) (fun a => ?_)
  match a with
  | ⟨0, _⟩ => rfl
  | ⟨1, _⟩ => rfl

/-- The area block after its scalar affine map and swish. -/
theorem area_act_apply (v0 v2 : Vec Ideal S1x1 .f32) (v4 : Vec Ideal S2000x128 .f32) (i : S2000x128.Idx) :
    k0_pay4 v0 v2 v4 i = swish (v4 i * v0 (ix2 0 0) + v2 (ix2 0 0)) := by
  unfold k0_pay4
  rw [truncf_apply, mulf_apply, logistic_apply, addf_apply, mulf_apply, broadcast_apply, broadcast_apply, extract_cell,
    extract_cell]
  rfl

/-- The basis block after its 42-wide contraction, bias and swish. -/
theorem basis_act_apply (v11 : Vec Ideal S2000x42 .f32) (v13 : Vec Ideal S42x128 .f32) (v16 : Vec Ideal S1x128 .f32)
    (p : Fin 2000) (k : Fin 128) :
    k0_pay5 v11 v13 v16 (ix2 p k) = swish ((∑ j : Fin 42, v11 (ix2 p j) * v13 (ix2 j k)) + v16 (ix2 0 k)) := by
  unfold k0_pay5
  rw [truncf_apply, mulf_apply, logistic_apply, addf_apply, bias_rows_apply]
  have hm : matmul (F := Ideal) dot_S2000x42_S42x128_S2000x128_1_0_0_1_n_n none (truncf (F := Ideal) .bf16 v11 bitsLt_bf16_f32)
      (truncf (F := Ideal) .bf16 v13 bitsLt_bf16_f32) (constant (F := Ideal) S2000x128 .f32 0x00000000#32) (ix2 p k)
      = ∑ j : Fin 42, v11 (ix2 p j) * v13 (ix2 j k) :=
    (matmul_plain_zero_apply (M := 2000) (K := 42) (N := 128) none (truncf (F := Ideal) .bf16 v11 bitsLt_bf16_f32)
      (truncf (F := Ideal) .bf16 v13 bitsLt_bf16_f32) p k).trans (by simp only [truncf_apply])
  rw [hm]
  rfl

/-! ## The four bands of the 512-row weight -/

/-- The slice of the weight block at row offset 0 is its band 0. -/
theorem weight_band0 (x6 : Vec Ideal S512x128 .f32) (k q : Fin 128) : View.ld x6 r0_5 (ix2 k q) = x6 (ix2 (band 0 k) q) := by
  show x6 _ = x6 _
  refine congrArg x6 (funext fun a => Fin.ext ?_)
  match a with
  | ⟨0, _⟩ => show 0 + 1 * k.val = k.val + 128 * 0; omega
  | ⟨1, _⟩ => show 0 + 1 * q.val = q.val; omega

/-- The slice at row offset 128 is band 1. -/
theorem weight_band1 (x6 : Vec Ideal S512x128 .f32) (k q : Fin 128) : View.ld x6 r0_6 (ix2 k q) = x6 (ix2 (band 1 k) q) := by
  show x6 _ = x6 _
  refine congrArg x6 (funext fun a => Fin.ext ?_)
  match a with
  | ⟨0, _⟩ => show 128 + 1 * k.val = k.val + 128 * 1; omega
  | ⟨1, _⟩ => show 0 + 1 * q.val = q.val; omega

/-- The slice at row offset 256 is band 2. -/
theorem weight_band2 (x6 : Vec Ideal S512x128 .f32) (k q : Fin 128) : View.ld x6 r0_7 (ix2 k q) = x6 (ix2 (band 2 k) q) := by
  show x6 _ = x6 _
  refine congrArg x6 (funext fun a => Fin.ext ?_)
  match a with
  | ⟨0, _⟩ => show 256 + 1 * k.val = k.val + 128 * 2; omega
  | ⟨1, _⟩ => show 0 + 1 * q.val = q.val; omega

/-- The slice at row offset 384 is band 3. -/
theorem weight_band3 (x6 : Vec Ideal S512x128 .f32) (k q : Fin 128) : View.ld x6 r0_8 (ix2 k q) = x6 (ix2 (band 3 k) q) := by
  show x6 _ = x6 _
  refine congrArg x6 (funext fun a => Fin.ext ?_)
  match a with
  | ⟨0, _⟩ => show 384 + 1 * k.val = k.val + 128 * 3; omega
  | ⟨1, _⟩ => show 0 + 1 * q.val = q.val; omega

/-! ## The stored block -/

/-- The stored value at (p, q): the four products into zero accumulators are plain sums over the contracted coordinate,
    added from the left; then the bias row's column; then swish. -/
theorem out_apply (v24 v27 v28 v29 : FVec Ideal S2000x128 .bf16) (v31 v33 v35 : FVec Ideal S128x128 .bf16)
    (v36 : Vec Ideal S128x128 .f32) (v45 : Vec Ideal S1x128 .f32) (p : Fin 2000) (q : Fin 128) :
    k0_pay1 v24 v27 v28 v29 v31 v33 v35 v36 v45 (ix2 p q)
      = swish (((((∑ k : Fin 128, v24 (ix2 p k) * v31 (ix2 k q)) + (∑ k : Fin 128, v27 (ix2 p k) * v33 (ix2 k q)))
            + (∑ k : Fin 128, v28 (ix2 p k) * v35 (ix2 k q))) + (∑ k : Fin 128, v29 (ix2 p k) * v36 (ix2 k q)))
          + v45 (ix2 0 q)) := by
  have hm : ∀ (a : FVec Ideal S2000x128 .bf16) (b : FVec Ideal S128x128 .bf16),
      matmul (F := Ideal) dot_S2000x128_S128x128_S2000x128_1_0_0_1_n_n none a b (constant (F := Ideal) S2000x128 .f32 0x00000000#32) (ix2 p q)
        = ∑ k : Fin 128, a (ix2 p k) * b (ix2 k q) :=
    fun a b => matmul_plain_zero_apply (M := 2000) (K := 128) (N := 128) none a b p q
  unfold k0_pay1
  rw [mulf_apply, logistic_apply, addf_apply, bias_rows_apply, addf_apply, addf_apply, addf_apply, hm, hm, hm, hm]
  simp only [truncf_apply]
  rfl

/-- Zero offsets, however spelt. -/
theorem zero_off : (![0, 0] : Fin 2 → Nat) = fun _ => 0 := funext fun a => by fin_cases a <;> rfl

/-- Entry (p, q) of the block a grid point stores, from its ten input blocks: the row function of row `p`. -/
theorem block_apply (x0 x1 x2 : Vec Ideal S2000x128 .f32) (x3 : Vec Ideal S2000x42 .f32) (x4 : Vec Ideal S42x128 .f32)
    (x5 : Vec Ideal S1x128 .f32) (x6 : Vec Ideal S512x128 .f32) (x7 : Vec Ideal S1x128 .f32) (x8 x9 : Vec Ideal S1x1 .f32)
    (p : Fin 2000) (q : Fin 128) :
    out0_10 x0 x1 x2 x3 x4 x5 x6 x7 x8 x9 (ix2 p q)
      = rowOut (fun k => x0 (ix2 p k)) (fun k => x1 (ix2 p k)) (fun k => x2 (ix2 p k)) (fun j => x3 (ix2 p j))
          (fun j k => x4 (ix2 j k)) (fun k => x5 (ix2 0 k)) (fun k q => x6 (ix2 k q)) (fun q => x7 (ix2 0 q))
          (x8 (ix2 0 0)) (x9 (ix2 0 0)) q := by
  unfold out0_10
  rw [View.canon_unit_zero zero_off]
  simp only [View.ld_unit_zero (S := S2000x128) zero_off, View.ld_unit_zero (S := S2000x42) zero_off,
    View.ld_unit_zero (S := S42x128) zero_off, View.ld_unit_zero (S := S1x128) zero_off, View.ld_unit_zero (S := S1x1) zero_off]
  rw [out_apply]
  simp only [edge_cast_apply, edge_cast_apply', area_act_apply, basis_act_apply, weight_cast0, weight_cast1, weight_cast2]
  -- the four slices of the weight block are its four bands
  unfold rowOut rowPre
  refine congrArg swish (congrArg (· + x7 (ix2 0 q)) ?_)
  refine congrArg₂ (· + ·) (congrArg₂ (· + ·) (congrArg₂ (· + ·) ?_ ?_) ?_) ?_
  · exact Finset.sum_congr rfl fun k _ => congrArg (x0 (ix2 p k) * ·) (weight_band0 x6 k q)
  · exact Finset.sum_congr rfl fun k _ => congrArg (x1 (ix2 p k) * ·) (weight_band1 x6 k q)
  · exact Finset.sum_congr rfl fun k _ => congrArg (swish (x2 (ix2 p k) * x8 (ix2 0 0) + x9 (ix2 0 0)) * ·) (weight_band2 x6 k q)
  · exact Finset.sum_congr rfl fun k _ =>
      congrArg (swish ((∑ j : Fin 42, x3 (ix2 p j) * x4 (ix2 j k)) + x5 (ix2 0 k)) * ·) (weight_band3 x6 k q)

end Cert.EdgeUpdate.Block

end
-- ==== Proof.KernelArray.lean ====
/-
  The kernel's result array, from the arrays its windows stage.

  The grid has 250 points; point `t` stages rows [2000 t, 2000 t + 2000) of the four row arrays, all of the weights, biases
  and scalars, and writes back rows [2000 t, 2000 t + 2000) of the result. So what point `t` writes back is block `t` of ONE
  whole-array function of the staged arrays — the row function applied row by row —, the 250 blocks cover the result array,
  and the array ends holding that function.
-/
import proofs.«417366_j55387898250014_1_alg».proof.Proof.Gen.KernelIdeal.Value
import proofs.«417366_j55387898250014_1_alg».proof.Proof.KernelBlock
import Idealize.ShloMosaic.Lib.Pipeline.Value
import Idealize.ShloMosaic.Lib.ValueIdx

set_option maxRecDepth 16384

noncomputable section

namespace Cert.EdgeUpdate.KernelArray

open Cert.KernelIdeal Cert.KernelIdeal.Gen Cert.EdgeUpdate Cert.EdgeUpdate.Block
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The staged arrays and their blocks, by their shapes -/

abbrev arr0 (c : Dev nD) : S500000x128.Idx → EReal := V m c main_v0
abbrev arr1 (c : Dev nD) : S500000x128.Idx → EReal := V m c main_v1
abbrev arr2 (c : Dev nD) : S500000x128.Idx → EReal := V m c main_arg1
abbrev arr3 (c : Dev nD) : S500000x42.Idx → EReal := V m c main_arg2
abbrev arr4 (c : Dev nD) : S42x128.Idx → EReal := V m c main_arg5
abbrev arr5 (c : Dev nD) : S1x128.Idx → EReal := V m c main_v2
abbrev arr6 (c : Dev nD) : S512x128.Idx → EReal := V m c main_arg7
abbrev arr7 (c : Dev nD) : S1x128.Idx → EReal := V m c main_v3
abbrev arr8 (c : Dev nD) : S1x1.Idx → EReal := V m c main_v4
abbrev arr9 (c : Dev nD) : S1x1.Idx → EReal := V m c main_v5

abbrev blk0 (c : Dev nD) (t : Fin cfg0.N) : Vec Ideal S2000x128 .f32 := iblk m c 0 t
abbrev blk1 (c : Dev nD) (t : Fin cfg0.N) : Vec Ideal S2000x128 .f32 := iblk m c 1 t
abbrev blk2 (c : Dev nD) (t : Fin cfg0.N) : Vec Ideal S2000x128 .f32 := iblk m c 2 t
abbrev blk3 (c : Dev nD) (t : Fin cfg0.N) : Vec Ideal S2000x42 .f32 := iblk m c 3 t
abbrev blk4 (c : Dev nD) (t : Fin cfg0.N) : Vec Ideal S42x128 .f32 := iblk m c 4 t
abbrev blk5 (c : Dev nD) (t : Fin cfg0.N) : Vec Ideal S1x128 .f32 := iblk m c 5 t
abbrev blk6 (c : Dev nD) (t : Fin cfg0.N) : Vec Ideal S512x128 .f32 := iblk m c 6 t
abbrev blk7 (c : Dev nD) (t : Fin cfg0.N) : Vec Ideal S1x128 .f32 := iblk m c 7 t
abbrev blk8 (c : Dev nD) (t : Fin cfg0.N) : Vec Ideal S1x1 .f32 := iblk m c 8 t
abbrev blk9 (c : Dev nD) (t : Fin cfg0.N) : Vec Ideal S1x1 .f32 := iblk m c 9 t

/-! ## The index maps over the grid -/

/-- The row windows and the result window are at block (t, 0) at point `t`; the other windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-- Row `p` of point `t`'s blocks is row `2000 t + p` of the arrays. -/
def rowOf (t : Fin cfg0.N) (p : Fin 2000) : Fin 500000 :=
  ⟨t.val * 2000 + p.val, by have h : t.val < 250 := Nat.lt_of_lt_of_eq t.isLt N_0; have := p.isLt; omega⟩

/-! ## Each window's block, read off its array -/

theorem blk0_apply (c : Dev nD) (t : Fin cfg0.N) (p : Fin 2000) (k : Fin 128) :
    blk0 m c t (ix2 p k) = arr0 m c (ix2 (rowOf t p) k) := by
  show arr0 m c (((cfg0.win 0).blk t).view.emb (ix2 p k)) = arr0 m c (ix2 (rowOf t p) k)
  refine congrArg (arr0 m c) (funext fun a => Fin.ext ?_)
  obtain ⟨e0, e1⟩ := (idx_facts t).1
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem blk1_apply (c : Dev nD) (t : Fin cfg0.N) (p : Fin 2000) (k : Fin 128) :
    blk1 m c t (ix2 p k) = arr1 m c (ix2 (rowOf t p) k) := by
  show arr1 m c (((cfg0.win 1).blk t).view.emb (ix2 p k)) = arr1 m c (ix2 (rowOf t p) k)
  refine congrArg (arr1 m c) (funext fun a => Fin.ext ?_)
  obtain ⟨e0, e1⟩ := (idx_facts t).2.1
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem blk2_apply (c : Dev nD) (t : Fin cfg0.N) (p : Fin 2000) (k : Fin 128) :
    blk2 m c t (ix2 p k) = arr2 m c (ix2 (rowOf t p) k) := by
  show arr2 m c (((cfg0.win 2).blk t).view.emb (ix2 p k)) = arr2 m c (ix2 (rowOf t p) k)
  refine congrArg (arr2 m c) (funext fun a => Fin.ext ?_)
  obtain ⟨e0, e1⟩ := (idx_facts t).2.2.1
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem blk3_apply (c : Dev nD) (t : Fin cfg0.N) (p : Fin 2000) (j : Fin 42) :
    blk3 m c t (ix2 p j) = arr3 m c (ix2 (rowOf t p) j) := by
  show arr3 m c (((cfg0.win 3).blk t).view.emb (ix2 p j)) = arr3 m c (ix2 (rowOf t p) j)
  refine congrArg (arr3 m c) (funext fun a => Fin.ext ?_)
  obtain ⟨e0, e1⟩ := (idx_facts t).2.2.2.1
  match a with
  | ⟨0, _⟩ => show win0_3.index t (0 : Fin 2) * 2000 + 1 * p.val = t.val * 2000 + p.val; rw [e0]; omega
  | ⟨1, _⟩ => show win0_3.index t (1 : Fin 2) * 42 + 1 * j.val = j.val; rw [e1]; omega

theorem blk4_eq (c : Dev nD) (t : Fin cfg0.N) : blk4 m c t = arr4 m c := by
  funext y
  show arr4 m c (((cfg0.win 4).blk t).view.emb y) = arr4 m c y
  refine congrArg (arr4 m c) (funext fun a => Fin.ext ?_)
  obtain ⟨e0, e1⟩ := (idx_facts t).2.2.2.2.1
  match a with
  | ⟨0, _⟩ => show win0_4.index t (0 : Fin 2) * 42 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) : blk5 m c t = arr5 m c := by
  funext y
  show arr5 m c (((cfg0.win 5).blk t).view.emb y) = arr5 m c y
  refine congrArg (arr5 m c) (funext fun a => Fin.ext ?_)
  obtain ⟨e0, e1⟩ := (idx_facts t).2.2.2.2.2.1
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) : blk6 m c t = arr6 m c := by
  funext y
  show arr6 m c (((cfg0.win 6).blk t).view.emb y) = arr6 m c y
  refine congrArg (arr6 m c) (funext fun a => Fin.ext ?_)
  obtain ⟨e0, e1⟩ := (idx_facts t).2.2.2.2.2.2.1
  match a with
  | ⟨0, _⟩ => show win0_6.index t (0 : Fin 2) * 512 + 1 * (y 0).val = (y 0).val; rw [e0]; omega
  | ⟨1, _⟩ => show win0_6.index t (1 : Fin 2) * 128 + 1 * (y 1).val = (y 1).val; rw [e1]; omega

theorem blk7_eq (c : Dev nD) (t : Fin cfg0.N) : blk7 m c t = arr7 m c := by
  funext y
  show arr7 m c (((cfg0.win 7).blk t).view.emb y) = arr7 m c y
  refine congrArg (arr7 m c) (funext fun a => Fin.ext ?_)
  obtain ⟨e0, e1⟩ := (idx_facts t).2.2.2.2.2.2.2.1
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem blk8_eq (c : Dev nD) (t : Fin cfg0.N) : blk8 m c t = arr8 m c := by
  funext y
  show arr8 m c (((cfg0.win 8).blk t).view.emb y) = arr8 m c y
  refine congrArg (arr8 m c) (funext fun a => Fin.ext ?_)
  obtain ⟨e0, e1⟩ := (idx_facts t).2.2.2.2.2.2.2.2.1
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

theorem blk9_eq (c : Dev nD) (t : Fin cfg0.N) : blk9 m c t = arr9 m c := by
  funext y
  show arr9 m c (((cfg0.win 9).blk t).view.emb y) = arr9 m c y
  refine congrArg (arr9 m c) (funext fun a => Fin.ext ?_)
  obtain ⟨e0, e1⟩ := (idx_facts t).2.2.2.2.2.2.2.2.2.1
  match a with
  | ⟨0, _⟩ => show win0_9.index t (0 : Fin 2) * 1 + 1 * (y 0).val = (y 0).val; rw [e0]; omega
  | ⟨1, _⟩ => show win0_9.index t (1 : Fin 2) * 1 + 1 * (y 1).val = (y 1).val; rw [e1]; omega

/-- Entry (p, q) of the result window's block at point `t` is entry (2000 t + p, q) of the result array. -/
theorem out_emb (t : Fin cfg0.N) (p : Fin 2000) (q : Fin 128) :
    ((cfg0.win 10).blk t).view.emb (ix2 p q) = (ix2 (rowOf t p) q : S500000x128.Idx) := by
  funext a
  refine Fin.ext ?_
  obtain ⟨e0, e1⟩ := (idx_facts t).2.2.2.2.2.2.2.2.2.2
  match a with
  | ⟨0, _⟩ => show win0_10.index t (0 : Fin 2) * 2000 + 1 * p.val = t.val * 2000 + p.val; rw [e0]; omega
  | ⟨1, _⟩ => show win0_10.index t (1 : Fin 2) * 128 + 1 * q.val = q.val; rw [e1]; omega

/-! ## What a point writes back, the cover, the array -/

/-- The result array as one function of the staged arrays. -/
abbrev staged (c : Dev nD) : S500000x128.Idx → EReal :=
  fromWindows (arr0 m c) (arr1 m c) (arr2 m c) (arr3 m c) (arr4 m c) (arr5 m c) (arr6 m c) (arr7 m c) (arr8 m c) (arr9 m c)

/-- WHAT POINT `t` WRITES BACK is block `t` of `staged`. -/
theorem flushed_eq (c : Dev nD) (t : Fin cfg0.N) :
    (dats m 0 c).flushed 10 t = ((cfg0.win 10).blk t).view.read (Elt Ideal) (staged m c) := by
  rw [Cert.KernelIdeal.Value.flushed10]
  funext j
  obtain ⟨p, q, rfl⟩ : ∃ (p : Fin 2000) (q : Fin 128), j = ix2 p q := ⟨j 0, j 1, eq_ix2 j⟩
  show out0_10 (blk0 m c t) (blk1 m c t) (blk2 m c t) (blk3 m c t) (blk4 m c t) (blk5 m c t) (blk6 m c t) (blk7 m c t)
      (blk8 m c t) (blk9 m c t) (ix2 p q) = staged m c (((cfg0.win 10).blk t).view.emb (ix2 p q))
  rw [out_emb]
  refine (block_apply (blk0 m c t) (blk1 m c t) (blk2 m c t) (blk3 m c t) (blk4 m c t) (blk5 m c t) (blk6 m c t) (blk7 m c t)
    (blk8 m c t) (blk9 m c t) p q).trans ?_
  simp only [blk0_apply, blk1_apply, blk2_apply, blk3_apply, blk4_eq, blk5_eq, blk6_eq, blk7_eq, blk8_eq, blk9_eq]
  rfl

/-- An index of the result array is in point `t`'s block iff each coordinate is in the block's range on its axis. -/
theorem mem_blk (t : Fin cfg0.N) (i : S500000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v6).slice (win0_10.rect t)).set ↔ _
  rw [View.set_slice_whole, Rect.mem_set_unit]
  exact Iff.rfl

/-- Every entry of the result array is in the block of the point that holds its row: point `row / 2000`. -/
theorem cover (i : S500000x128.Idx) :
    ∃ t : Fin cfg0.N, (cfg0.win 10).flush t = true ∧ i ∈ ((cfg0.win 10).blk t).view.set := by
  have hN : cfg0.N = 250 := N_0
  have hi0 : (i 0).val < 500000 := (i 0).isLt
  have hi1 : (i 1).val < 128 := (i 1).isLt
  refine ⟨⟨(i 0).val / 2000, by rw [hN]; omega⟩, flush0_10 _, ?_⟩
  rw [mem_blk]
  obtain ⟨e0, e1⟩ := (idx_facts ⟨(i 0).val / 2000, by rw [hN]; omega⟩).2.2.2.2.2.2.2.2.2.2
  intro a
  match a with
  | ⟨0, _⟩ =>
    show win0_10.index _ (0 : Fin 2) * 2000 ≤ (i 0).val ∧ (i 0).val < win0_10.index _ (0 : Fin 2) * 2000 + 2000
    rw [e0]
    show (i 0).val / 2000 * 2000 ≤ (i 0).val ∧ (i 0).val < (i 0).val / 2000 * 2000 + 2000
    omega
  | ⟨1, _⟩ =>
    show win0_10.index _ (1 : Fin 2) * 128 ≤ (i 1).val ∧ (i 1).val < win0_10.index _ (1 : Fin 2) * 128 + 128
    rw [e1]
    omega

/-- THE ARRAY after the run, as a function of the staged arrays. -/
theorem final_staged (c : Dev nD) : (dats m 0 c).arrAt 10 cfg0.N = staged m c :=
  (dats m 0 c).arrAt_eq_of_cover 10 (staged m c) (fun t _ => flushed_eq m c t) cover

end Cert.EdgeUpdate.KernelArray

end
-- ==== Proof.LibAndAll.lean ====
/-
  An all-ones mask reduced by `and` is all ones: the converse of reading each element off a reduction that is one.
  A one-operand `stablehlo.reduce` by `and` runs a left fold from the initial value over the operand's elements that
  reduce into the result element; when the initial value and every operand element are the one bit, so is the fold.
-/
import Idealize.ShloMosaic.PureOps.Reduce

namespace Idealize.ShloMosaic

/-- A left fold by `and` from the one bit over elements that are all the one bit is the one bit. -/
theorem IntOp.foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact IntOp.foldl_andi_ones x hx l

/-- A `stablehlo.reduce` by `and`, over any axes, of an operand whose elements are all the one bit, from an initial
    value that is the one bit: every element of the result is the one bit. -/
theorem Host.reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact IntOp.foldl_andi_ones x hx _

end Idealize.ShloMosaic
-- ==== Proof.HostTake.lean ====
/-
  The fill-mode row take the kernel's host code performs before the launch, and why, for indices in range, it is the plain
  row gather.

  For an index vector `idx` the host wraps each index once from the negatives (`idx + 200000` where `idx < 0`), lays the
  result out as a [500000, 1] column of start indices, gathers the table's rows at them, and — fill mode — replaces a row
  whose start index is not in [0, 199999] by a filler. Row `r` is kept when the `and` over its one start index of
  `0 ≤ start ∧ start ≤ 199999` is the one bit. An index in [-200000, 200000) wraps into [0, 199999], so for an index
  vector all of whose entries are in range every row is kept and the filler is never read.
-/
import proofs.«417366_j55387898250014_1_alg».proof.KernelIdeal
import proofs.«417366_j55387898250014_1_alg».proof.Proof.Gen.KernelIdeal
import proofs.«417366_j55387898250014_1_alg».proof.Proof.Spec
import proofs.«417366_j55387898250014_1_alg».proof.Proof.LibAndAll
import proofs.«417366_j55387898250014_1_alg».proof.Proof.LibRowDims
import Idealize.ShloMosaic.Lib.Pipeline.Value
import Idealize.ShloMosaic.Lib.ValueIdx

noncomputable section

namespace Cert.EdgeUpdate.HostTake

open Cert.KernelIdeal Cert.KernelIdeal.Facts₀ Cert.KernelIdeal.Facts Cert.EdgeUpdate
open Idealize.ShloMosaic Idealize.ShloMosaic.ValueIdx Idealize.ShloMosaic.RowDims

/-- The wrapped start indices, as the [500000, 1] column the gather takes. -/
def startCol (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 200000#32))) idx)

/-- Per row: is its start index a row of the table? -/
def inTable (idx : IVec S500000 32) : IVec S500000 1 :=
  Host.reduce IntOp.andi
    (andi (cmpi .sge (startCol idx) (broadcastInDim S500000x1 ![] bcast_S_S500000x1 (constantI S_ 32 0#32)))
      (cmpi .sle (startCol idx) (broadcastInDim S500000x1 ![0, 1] bcast_S1x1_S500000x1_0_1
        (broadcastInDim S1x1 ![1] bcast_S1_S1x1_1 (constantI S1 32 199999#32)))))
    (constantI S_ 1 1#1) reducesTo_S500000x1_S500000_d1 h_S_

/-- The take: the gathered row where its start index is a row of the table, the filler elsewhere. -/
def takeRows (x : S200000x128.Idx → EReal) (idx : IVec S500000 32) : S500000x128.Idx → EReal :=
  select (broadcastInDim S500000x128 ![0] bcast_S500000_S500000x128_0 (inTable idx))
    (Host.gather gather_S200000x128_S500000x1_S500000x128_1_0_n_n_0_1_1128 x (startCol idx))
    (broadcastInDim S500000x128 ![] bcast_S_S500000x128 (constant (F := Ideal) S_ .f32 0x7FC00000#32))

/-- The start index of a row is its index, wrapped. -/
theorem startCol_apply (idx : IVec S500000 32) (i : S500000x1.Idx) : startCol idx i = wrap (idx (ix1 (i 0))) := by
  unfold startCol
  rw [broadcastInDim_apply _ bcast_S500000_S500000x1_0 _ i (ix1 (i 0)) (fun a => match a with
    | ⟨0, _⟩ => by show (i 0).val = if (500000 : Nat) = 1 then 0 else (i 0).val; rw [if_neg (by decide)])]
  rfl

/-- With every index in range, every row's start index is a row of the table. -/
theorem inTable_ones (idx : IVec S500000 32) (h : ∀ r : Fin 500000, InRange (idx (ix1 r))) (j : S500000.Idx) :
    inTable idx j = 1#1 := by
  unfold inTable
  refine Host.reduce_andi_ones _ _ _ _ (fun i => ?_) (fun _ => rfl) j
  show IntOp.andi (IntOp.cmpi .sge (startCol idx i) 0#32) (IntOp.cmpi .sle (startCol idx i) 199999#32) = 1#1
  rw [startCol_apply]
  obtain ⟨h0, h1⟩ := wrap_inRange _ (h (i 0)).1 (h (i 0)).2
  unfold IntOp.cmpi
  simp only [h0, h1]
  decide

/-- With every index in range the take is the plain row gather at the wrapped indices. -/
theorem takeRows_eq (x : S200000x128.Idx → EReal) (idx : IVec S500000 32) (h : ∀ r : Fin 500000, InRange (idx (ix1 r))) :
    takeRows x idx = gatherRows x idx := by
  funext i
  obtain ⟨r, q, rfl⟩ : ∃ (r : Fin 500000) (q : Fin 128), i = ix2 r q := ⟨i 0, i 1, eq_ix2 i⟩
  unfold takeRows
  rw [select_apply, broadcastInDim_apply _ bcast_S500000_S500000x128_0 (inTable idx) (ix2 r q) (ix1 r) (fun a => match a with
    | ⟨0, _⟩ => by show r.val = if (500000 : Nat) = 1 then 0 else r.val; rw [if_neg (by decide)]),
    inTable_ones idx h, select_one]
  refine (rowGather_apply (N := 200000) (C := 128) (R := 500000) (by decide)
    gather_S200000x128_S500000x1_S500000x128_1_0_n_n_0_1_1128_wf x (startCol idx) r q).trans ?_
  rw [startCol_apply]
  rfl

end Cert.EdgeUpdate.HostTake

end
-- ==== Proof.HostPrefix.lean ====
/-
  What the kernel's windows find in the arrays the host writes before the launch: the two fill-mode row takes of the edge
  table, and the two biases and two scalars re-laid as [1, 128] rows and [1, 1] cells. Each is read off @main's host
  operations up to the launch, one composed term per array.
-/
import proofs.«417366_j55387898250014_1_alg».proof.Proof.Gen.KernelIdeal.Frame
import proofs.«417366_j55387898250014_1_alg».proof.Proof.HostTake
import Idealize.ShloMosaic.Lib.Pipeline.Value
import Idealize.ShloMosaic.Lib.StableHlo.Run
import Idealize.ShloMosaic.Lib.ValueIdx

noncomputable section

namespace Cert.EdgeUpdate.HostPrefix

open Cert.KernelIdeal Cert.KernelIdeal.Gen Cert.EdgeUpdate Cert.EdgeUpdate.HostTake
open Idealize.ShloMosaic Idealize.ShloMosaic.ValueIdx Idealize.ShloMosaic.TcCoe Idealize.SL.Sem

variable (m : (ℓ : Loc nD τ sig) → Buf (Elt Ideal) ℓ)

set_option maxRecDepth 200000 in
set_option maxHeartbeats 4000000 in
/-- The first gathered array is the take of the edge table at the first index vector. -/
theorem V_eji (c : Dev nD) : (V m c main_v0 : S500000x128.Idx → EReal)
    = takeRows (m ((c : Thread nD τ).loc main_arg0)) (m ((c : Thread nD τ).loc main_arg3)) := by
  dsimp only [V]
  simp only [hostOps0, hostOps0_1, hostOps0_2, List.flatten_cons, List.flatten_nil, List.append_nil, List.cons_append,
    List.nil_append]
  after_results
  simp only [StableHlo.TRef.toBuf, StableHlo.TRef.ofBuf, cast_eq]
  unfold takeRows inTable startCol
  rfl

set_option maxRecDepth 200000 in
set_option maxHeartbeats 4000000 in
/-- The second gathered array is the take at the second index vector. -/
theorem V_ekj (c : Dev nD) : (V m c main_v1 : S500000x128.Idx → EReal)
    = takeRows (m ((c : Thread nD τ).loc main_arg0)) (m ((c : Thread nD τ).loc main_arg4)) := by
  dsimp only [V]
  simp only [hostOps0, hostOps0_1, hostOps0_2, List.flatten_cons, List.flatten_nil, List.append_nil, List.cons_append,
    List.nil_append]
  after_results
  simp only [StableHlo.TRef.toBuf, StableHlo.TRef.ofBuf, cast_eq]
  unfold takeRows inTable startCol
  rfl

/-- A 128-vector re-laid as a [1, 128] row reads the vector at the column. -/
theorem row_of_vec (v : S128.Idx → EReal) (i : S1x128.Idx) : shapeCast S1x128 v Facts₀.shapeCasts_S128_S1x128 i = v (ix1 (i 1)) := by
  refine (shapeCast_addUnit_apply ![128] v Facts₀.shapeCasts_S128_S1x128 i).trans (congrArg v (funext fun a => ?_))
  match a with
  | ⟨0, _⟩ => rfl

/-- A 1-vector re-laid as a [1, 1] cell reads the vector's entry. -/
theorem cell_of_vec (v : S1.Idx → EReal) (i : S1x1.Idx) : shapeCast S1x1 v Facts₀.shapeCasts_S1_S1x1 i = v (ix1 0) := by
  refine (shapeCast_addUnit_apply ![1] v Facts₀.shapeCasts_S1_S1x1 i).trans (congrArg v (funext fun a => ?_))
  match a with
  | ⟨0, _⟩ => exact Fin.ext (by have := (i 1).isLt; show (i 1).val = 0; simp at this; omega)

set_option maxHeartbeats 4000000 in
/-- The basis bias as the window finds it. -/
theorem V_bsbf (c : Dev nD) : (V m c main_v2 : S1x128.Idx → EReal) = fun i => m ((c : Thread nD τ).loc main_arg6) (ix1 (i 1)) := by
  dsimp only [V]
  simp only [hostOps0, hostOps0_1, hostOps0_2, List.flatten_cons, List.flatten_nil, List.append_nil, List.cons_append,
    List.nil_append]
  after_results
  funext i
  exact row_of_vec _ i

set_option maxHeartbeats 4000000 in
/-- The output bias as the window finds it. -/
theorem V_blin (c : Dev nD) : (V m c main_v3 : S1x128.Idx → EReal) = fun i => m ((c : Thread nD τ).loc main_arg8) (ix1 (i 1)) := by
  dsimp only [V]
  simp only [hostOps0, hostOps0_1, hostOps0_2, List.flatten_cons, List.flatten_nil, List.append_nil, List.cons_append,
    List.nil_append]
  after_results
  funext i
  exact row_of_vec _ i

set_option maxHeartbeats 4000000 in
/-- The area scale as the window finds it. -/
theorem V_w1 (c : Dev nD) : (V m c main_v4 : S1x1.Idx → EReal) = fun _ => m ((c : Thread nD τ).loc main_arg9) (ix1 0) := by
  dsimp only [V]
  simp only [hostOps0, hostOps0_1, hostOps0_2, List.flatten_cons, List.flatten_nil, List.append_nil, List.cons_append,
    List.nil_append]
  after_results
  funext i
  exact cell_of_vec _ i

set_option maxHeartbeats 4000000 in
/-- The area shift as the window finds it. -/
theorem V_b1 (c : Dev nD) : (V m c main_v5 : S1x1.Idx → EReal) = fun _ => m ((c : Thread nD τ).loc main_arg10) (ix1 0) := by
  dsimp only [V]
  simp only [hostOps0, hostOps0_1, hostOps0_2, List.flatten_cons, List.flatten_nil, List.append_nil, List.cons_append,
    List.nil_append]
  after_results
  funext i
  exact cell_of_vec _ i

end Cert.EdgeUpdate.HostPrefix

end
-- ==== Proof.KernelValue.lean ====
/-
  The kernel's result array, from its arguments.

  The arrays the windows stage are the arguments themselves, the two fill-mode takes of the edge table — plain row gathers at
  the wrapped indices when every index is in range — and the two biases and two scalars re-laid as rows and cells. Put into
  the whole-array function of the staged arrays, they give the edge update of the eleven arguments.
-/
import proofs.«417366_j55387898250014_1_alg».proof.Proof.KernelArray
import proofs.«417366_j55387898250014_1_alg».proof.Proof.HostPrefix
import Idealize.ShloMosaic.Lib.Pipeline.Value
import Idealize.ShloMosaic.Lib.ValueIdx

noncomputable section

namespace Cert.EdgeUpdate.KernelValue

open Cert.KernelIdeal Cert.KernelIdeal.Gen Cert.EdgeUpdate Cert.EdgeUpdate.HostTake Cert.EdgeUpdate.HostPrefix Cert.EdgeUpdate.KernelArray
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- THE ARRAY after the run, as a function of the arguments, when every index is in range. -/
theorem final (c : Dev nD) (hji : ∀ r : Fin 500000, InRange ((m ((c : Thread nD τ).loc main_arg3)) (ix1 r)))
    (hkj : ∀ r : Fin 500000, InRange ((m ((c : Thread nD τ).loc main_arg4)) (ix1 r))) :
    (dats m 0 c).arrAt 10 cfg0.N
      = edgeUpdate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [final_staged]
  have h0 : arr0 m c = gatherRows (m ((c : Thread nD τ).loc main_arg0)) (m ((c : Thread nD τ).loc main_arg3)) := (V_eji m c).trans (takeRows_eq _ _ hji)
  have h1 : arr1 m c = gatherRows (m ((c : Thread nD τ).loc main_arg0)) (m ((c : Thread nD τ).loc main_arg4)) := (V_ekj m c).trans (takeRows_eq _ _ hkj)
  have h2 : arr2 m c = (m ((c : Thread nD τ).loc main_arg1)) := V_main_arg1 m c
  have h3 : arr3 m c = (m ((c : Thread nD τ).loc main_arg2)) := V_main_arg2 m c
  have h4 : arr4 m c = (m ((c : Thread nD τ).loc main_arg5)) := V_main_arg5 m c
  have h5 : arr5 m c = fun i => (m ((c : Thread nD τ).loc main_arg6)) (ix1 (i 1)) := V_bsbf m c
  have h6 : arr6 m c = (m ((c : Thread nD τ).loc main_arg7)) := V_main_arg7 m c
  have h7 : arr7 m c = fun i => (m ((c : Thread nD τ).loc main_arg8)) (ix1 (i 1)) := V_blin m c
  have h8 : arr8 m c = fun _ => (m ((c : Thread nD τ).loc main_arg9)) (ix1 0) := V_w1 m c
  have h9 : arr9 m c = fun _ => (m ((c : Thread nD τ).loc main_arg10)) (ix1 0) := V_b1 m c
  show fromWindows (arr0 m c) (arr1 m c) (arr2 m c) (arr3 m c) (arr4 m c) (arr5 m c) (arr6 m c) (arr7 m c) (arr8 m c) (arr9 m c) = _
  rw [h0, h1, h2, h3, h4, h5, h6, h7, h8, h9]
  rfl

/-! ## The run, read -/

/-- The kernel's run with its result array named as the edge update of the arguments, the arguments unchanged. -/
theorem run (hji : ∀ (c : Dev nD) (r : Fin 500000), InRange ((m ((c : Thread nD τ).loc main_arg3)) (ix1 r)))
    (hkj : ∀ (c : Dev nD) (r : Fin 500000), InRange ((m ((c : Thread nD τ).loc main_arg4)) (ix1 r))) :
    θ_run defs (onTc (τ := τ) (main (F := Ideal))) ⟨m, fun _ => 0, ρ⟩ fun r => ∀ c : Dev nD,
      r.2.mem ((c : Thread nD τ).loc main_v6)
          = edgeUpdate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c (hji c) (hkj c)), (h c).2⟩)
    (Cert.KernelIdeal.Value.run_blocks m ρ)

end Cert.EdgeUpdate.KernelValue

end
-- ==== Proof.RefValue.lean ====
/-
  The reference, read at an entry.

  The reference forms the same per-row quantities with whole-array host operations: the scalar affine map of the area array
  and its swish; the 42-wide contraction of the basis array, its bias and swish; the two row gathers of the edge table at the
  wrapped indices; these four [500000, 128] arrays laid end to end into [500000, 512]; one contraction over 512 against the
  whole weight; the bias; the swish. Its swish is spelt `x · (1 / (1 + e^(-x)))`, which is `x · σ(x)`. Read at an entry
  (r, q), the sum over 512 splits into the four bands, band `b` of the joined row is piece `b`, and the result is the row
  function of row `r`.
-/
import proofs.«417366_j55387898250014_1_alg».proof.Proof.Gen.ReferenceIdeal.Read
import proofs.«417366_j55387898250014_1_alg».proof.Proof.Spec
import proofs.«417366_j55387898250014_1_alg».proof.Proof.LibRowDims
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.EdgeUpdate.Ref

open Cert.ReferenceIdeal Cert.ReferenceIdeal.Read Cert.EdgeUpdate
open Idealize.ShloMosaic Idealize.ShloMosaic.ValueIdx Idealize.ShloMosaic.RowDims

variable (x0 : (⟨S200000x128, .f32⟩ : BufTy).Contents (Elt Ideal)) (x1 : (⟨S500000x128, .f32⟩ : BufTy).Contents (Elt Ideal)) (x2 : (⟨S500000x42, .f32⟩ : BufTy).Contents (Elt Ideal))
  (x3 x4 : (⟨S500000, .i32⟩ : BufTy).Contents (Elt Ideal)) (x5 : (⟨S42x128, .f32⟩ : BufTy).Contents (Elt Ideal)) (x6 : (⟨S128, .f32⟩ : BufTy).Contents (Elt Ideal))
  (x7 : (⟨S512x128, .f32⟩ : BufTy).Contents (Elt Ideal)) (x8 : (⟨S128, .f32⟩ : BufTy).Contents (Elt Ideal)) (x9 x10 : (⟨S1, .f32⟩ : BufTy).Contents (Elt Ideal))

/-! ## The reference's swish -/

/-- `x · (1 / (1 + e^(-x)))`, with both ones the float pattern of 1.0, is `x · σ(x)`. -/
theorem swish_host (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = swish x := by
  rw [Ideal.ofBits_def, Ideal.ofBits_one_f32]
  rfl

/-! ## The index maps of the broadcasts and contractions, in coordinates -/

theorem scalar_idx (i : S500000x128.Idx) : idx_main_v0 (idx_main_v1 i) = ix1 0 :=
  funext fun a => by match a with | ⟨0, _⟩ => rfl
theorem scalar_idx' (i : S500000x128.Idx) : idx_main_v3 (idx_main_v4 i) = ix1 0 :=
  funext fun a => by match a with | ⟨0, _⟩ => rfl
theorem bias_idx (r : Fin 500000) (k : Fin 128) : idx_main_v14 (idx_main_v15 (ix2 r k)) = ix1 k :=
  funext fun a => by match a with | ⟨0, _⟩ => rfl
theorem bias_idx' (r : Fin 500000) (k : Fin 128) : idx_main_v40 (idx_main_v41 (ix2 r k)) = ix1 k :=
  funext fun a => by match a with | ⟨0, _⟩ => rfl
theorem basis_lidx (r : Fin 500000) (k : Fin 128) (j : Fin 42) : lidx_main_v13 (ix2 r k) j = ix2 r j :=
  funext fun a => Fin.ext (by match a with | ⟨0, _⟩ => rfl | ⟨1, _⟩ => rfl)
theorem basis_ridx (r : Fin 500000) (k : Fin 128) (j : Fin 42) : ridx_main_v13 (ix2 r k) j = ix2 j k :=
  funext fun a => Fin.ext (by match a with | ⟨0, _⟩ => rfl | ⟨1, _⟩ => rfl)
theorem joined_lidx (r : Fin 500000) (q : Fin 128) (k : Fin 512) : lidx_main_v39 (ix2 r q) k = ix2 r k :=
  funext fun a => Fin.ext (by match a with | ⟨0, _⟩ => rfl | ⟨1, _⟩ => rfl)
theorem joined_ridx (r : Fin 500000) (q : Fin 128) (k : Fin 512) : ridx_main_v39 (ix2 r q) k = ix2 k q :=
  funext fun a => Fin.ext (by match a with | ⟨0, _⟩ => rfl | ⟨1, _⟩ => rfl)
theorem start_idx (r : Fin 500000) : idx_main_v29 (ix2 r 0) = ix1 r :=
  funext fun a => by match a with | ⟨0, _⟩ => rfl
theorem start_idx' (r : Fin 500000) : idx_main_v36 (ix2 r 0) = ix1 r :=
  funext fun a => by match a with | ⟨0, _⟩ => rfl

/-! ## The four pieces -/

/-- The area array after its scalar affine map and swish. -/
theorem area_stage (i : S500000x128.Idx) :
    val_main_v12 (F := Ideal) x1 x9 x10 i = swish (x1 i * x9 (ix1 0) + x10 (ix1 0)) := by
  rw [val_main_v12_apply, val_main_v11_apply, val_main_v10_apply, val_main_cst_0_apply, val_main_v9_apply, val_main_v8_apply,
    val_main_cst_apply, val_main_v7_apply, val_main_v6_apply, swish_host, val_main_v5_apply, val_main_v2_apply,
    val_main_v1_apply, val_main_v0_apply, val_main_v4_apply, val_main_v3_apply, scalar_idx, scalar_idx']
  rfl

/-- The basis array after its 42-wide contraction, bias and swish. -/
theorem basis_stage (r : Fin 500000) (k : Fin 128) :
    val_main_v23 (F := Ideal) x2 x5 x6 (ix2 r k) = swish ((∑ j : Fin 42, x2 (ix2 r j) * x5 (ix2 j k)) + x6 (ix1 k)) := by
  rw [val_main_v23_apply, val_main_v22_apply, val_main_v21_apply, val_main_cst_2_apply, val_main_v20_apply, val_main_v19_apply,
    val_main_cst_1_apply, val_main_v18_apply, val_main_v17_apply, swish_host, val_main_v16_apply, val_main_v13_apply,
    val_main_v15_apply, val_main_v14_apply, bias_idx]
  rw [Finset.sum_congr rfl (fun j _ => by rw [basis_lidx, basis_ridx])]
  rfl

/-- The reference's start index is the wrapped index. -/
theorem wrap_stage (j : S500000.Idx) : val_main_v28 (F := Ideal) x3 j = wrap (x3 j) := rfl
theorem wrap_stage' (j : S500000.Idx) : val_main_v35 (F := Ideal) x4 j = wrap (x4 j) := rfl

/-- The first gathered array. -/
theorem gather_stage (r : Fin 500000) (k : Fin 128) :
    val_main_v30 (F := Ideal) x0 x3 (ix2 r k) = gatherRows x0 x3 (ix2 r k) := by
  unfold val_main_v30
  refine (rowGather_apply (N := 200000) (C := 128) (R := 500000) (by decide)
    Facts₀.gather_S200000x128_S500000x1_S500000x128_1_0_n_n_0_1_1128_wf x0 (val_main_v29 (F := Ideal) x3) r k).trans ?_
  rw [val_main_v29_apply, start_idx, wrap_stage]
  rfl

/-- The second gathered array. -/
theorem gather_stage' (r : Fin 500000) (k : Fin 128) :
    val_main_v37 (F := Ideal) x0 x4 (ix2 r k) = gatherRows x0 x4 (ix2 r k) := by
  unfold val_main_v37
  refine (rowGather_apply (N := 200000) (C := 128) (R := 500000) (by decide)
    Facts₀.gather_S200000x128_S500000x1_S500000x128_1_0_n_n_0_1_1128_wf x0 (val_main_v36 (F := Ideal) x4) r k).trans ?_
  rw [val_main_v36_apply, start_idx', wrap_stage']
  rfl

/-! ## The joined array, band by band -/

theorem joined_band0 (r : Fin 500000) (k : Fin 128) :
    val_main_v38 (F := Ideal) x0 x1 x2 x3 x4 x5 x6 x9 x10 (ix2 r (band 0 k)) = val_main_v30 (F := Ideal) x0 x3 (ix2 r k) := by
  unfold val_main_v38
  exact concat4_apply _ _ _ _ _ r 0 k
theorem joined_band1 (r : Fin 500000) (k : Fin 128) :
    val_main_v38 (F := Ideal) x0 x1 x2 x3 x4 x5 x6 x9 x10 (ix2 r (band 1 k)) = val_main_v37 (F := Ideal) x0 x4 (ix2 r k) := by
  unfold val_main_v38
  exact concat4_apply _ _ _ _ _ r 1 k
theorem joined_band2 (r : Fin 500000) (k : Fin 128) :
    val_main_v38 (F := Ideal) x0 x1 x2 x3 x4 x5 x6 x9 x10 (ix2 r (band 2 k)) = val_main_v12 (F := Ideal) x1 x9 x10 (ix2 r k) := by
  unfold val_main_v38
  exact concat4_apply _ _ _ _ _ r 2 k
theorem joined_band3 (r : Fin 500000) (k : Fin 128) :
    val_main_v38 (F := Ideal) x0 x1 x2 x3 x4 x5 x6 x9 x10 (ix2 r (band 3 k)) = val_main_v23 (F := Ideal) x2 x5 x6 (ix2 r k) := by
  unfold val_main_v38
  exact concat4_apply _ _ _ _ _ r 3 k

/-! ## The result -/

/-- The pre-activation at (r, q): the contraction over 512 by bands, then the bias. -/
theorem pre_stage (r : Fin 500000) (q : Fin 128) :
    val_main_v42 (F := Ideal) x0 x1 x2 x3 x4 x5 x6 x7 x8 x9 x10 (ix2 r q)
      = rowPre (fun k => gatherRows x0 x3 (ix2 r k)) (fun k => gatherRows x0 x4 (ix2 r k)) (fun k => x1 (ix2 r k))
          (fun j => x2 (ix2 r j)) (fun j k => x5 (ix2 j k)) (fun k => x6 (ix1 k)) (fun k q => x7 (ix2 k q))
          (fun q => x8 (ix1 q)) (x9 (ix1 0)) (x10 (ix1 0)) q := by
  rw [val_main_v42_apply, val_main_v39_apply, val_main_v41_apply, val_main_v40_apply, bias_idx']
  rw [Finset.sum_congr rfl (fun k _ => by rw [joined_lidx, joined_ridx]), sum_bands]
  simp only [joined_band0, joined_band1, joined_band2, joined_band3, gather_stage, gather_stage', area_stage, basis_stage]
  rfl

/-- The reference's result array is the edge update of its eleven arguments. -/
theorem result_eq :
    val_main_v49 (F := Ideal) x0 x1 x2 x3 x4 x5 x6 x7 x8 x9 x10 = edgeUpdate x0 x1 x2 x3 x4 x5 x6 x7 x8 x9 x10 := by
  funext i
  obtain ⟨r, q, rfl⟩ : ∃ (r : Fin 500000) (q : Fin 128), i = ix2 r q := ⟨i 0, i 1, eq_ix2 i⟩
  rw [val_main_v49_apply, val_main_v48_apply, val_main_v47_apply, val_main_cst_7_apply, val_main_v46_apply, val_main_v45_apply,
    val_main_cst_6_apply, val_main_v44_apply, val_main_v43_apply, swish_host, pre_stage]
  rfl

end Cert.EdgeUpdate.Ref

end
-- ==== Proof.PreRange.lean ====
/-
  The index ranges, read off the precondition.

  The precondition is one bit: the `and` of the float inputs' finiteness tests and, last, of the two index tests — for each
  index vector, the `and` over all its entries of `-200000 ≤ v ∧ v < 200000`, read signed. When the bit is one, every
  conjunct is one, so every entry of each index vector is in range.
-/
import proofs.«417366_j55387898250014_1_alg».proof.Pre_finite_inputs
import proofs.«417366_j55387898250014_1_alg».proof.Proof.Gen.Pre_finite_inputs
import proofs.«417366_j55387898250014_1_alg».proof.Proof.Spec
import Idealize.ShloMosaic.Lib.ReduceAll
import Idealize.ShloMosaic.Lib.StableHlo.Predicate
import Idealize.ShloMosaic.Lib.ValueIdx

noncomputable section

namespace Cert.EdgeUpdate.PreRange

open Cert.Pre_finite_inputs Cert.EdgeUpdate
open Idealize.ShloMosaic Idealize.ShloMosaic.ValueIdx

/-- A rank-0 array has one index. -/
instance : Subsingleton S_.Idx := ⟨fun a b => funext fun d => d.elim0⟩

/-- One entry's test: both compares are one exactly when the entry is in range. -/
theorem inRange_of_bits (v lo hi : BitVec 32) (hlo : lo = 4294767296#32) (hhi : hi = 200000#32)
    (e : IntOp.andi (IntOp.cmpi .sge v lo) (IntOp.cmpi .slt v hi) = 1#1) : InRange v := by
  subst hlo hhi
  obtain ⟨e1, e2⟩ := IntOp.andi_eq_one.1 e
  have e1' : BitVec.ofBool ((4294767296#32 : BitVec 32).sle v) = 1#1 := e1
  have e2' : BitVec.ofBool (v.slt (200000#32 : BitVec 32)) = 1#1 := e2
  exact ⟨(StableHlo.Predicate.ofBool_eq_one_iff _).1 e1', (StableHlo.Predicate.ofBool_eq_one_iff _).1 e2'⟩

/-- The precondition gives the range of every entry of both index vectors. -/
theorem ranges_of_pre [Cert.Pre_finite_inputs.Facts] (a0 : FVec Ideal S200000x128 .f32) (a1 : FVec Ideal S500000x128 .f32)
    (a2 : FVec Ideal S500000x42 .f32) (a3 a4 : IVec S500000 32) (a5 : FVec Ideal S42x128 .f32) (a6 : FVec Ideal S128 .f32)
    (a7 : FVec Ideal S512x128 .f32) (a8 : FVec Ideal S128 .f32) (a9 a10 : FVec Ideal S1 .f32)
    (h : fn (F := Ideal) a0 a1 a2 a3 a4 a5 a6 a7 a8 a9 a10 = fun _ => 1#1) :
    (∀ r : Fin 500000, InRange (a3 (ix1 r))) ∧ (∀ r : Fin 500000, InRange (a4 (ix1 r))) := by
  have h0 := congrFun h ix0
  unfold fn at h0; dsimp only at h0
  unfold fn_part1 at h0; dsimp only at h0
  unfold fn_part2 at h0; dsimp only at h0
  unfold fn_part3 at h0; dsimp only at h0
  -- the last two conjuncts of the chain are the two index tests
  obtain ⟨h1, hkj⟩ := IntOp.andi_eq_one.1 h0
  obtain ⟨-, hji⟩ := IntOp.andi_eq_one.1 h1
  refine ⟨fun r => ?_, fun r => ?_⟩
  · exact inRange_of_bits _ _ _ rfl rfl (Host.reduce_andi_all _ _ _ _ ix0 hji (ix1 r))
  · exact inRange_of_bits _ _ _ rfl rfl (Host.reduce_andi_all _ _ _ _ ix0 hkj (ix1 r))

end Cert.EdgeUpdate.PreRange

end
-- ==== Proof.lean ====
/-
  A triplet-to-edge update of a graph network: for each of 500000 triplets, two rows of a [200000, 128] edge table are
  gathered at python-style indices, an area row goes through a scalar affine map and a swish, a basis row through a 42-wide
  linear layer and a swish, and the four 128-wide rows go through a 512-wide linear layer and a swish.

  The kernel gathers the two rows on the host in fill mode (a row whose wrapped index is not a row of the table is replaced
  by a filler), then runs one pipelined call over 250 blocks of 2000 triplets, contracting the four 128-row bands of the
  512-row weight one by one in a narrower float format. The reference gathers without a filler, lays the four rows end to
  end and contracts once over 512. On the extended reals the narrowing casts are the identity, a product into a zero
  accumulator is the plain sum, the logistic and `1 / (1 + e^(-x))` are one function, and a sum over 512 positions is the
  sum of its four bands; so the two results are the same function of the arguments wherever the filler is never used, which
  is where every index is in [-200000, 200000) — the stated domain of the index inputs, outside of which the reference
  itself indexes past its table. No finiteness of the float inputs is used.

  The kernel's frames and block-by-block value, and the reference's run and its stages read at an index, are generated and
  imported; written here are the row function both sides compute, the kernel's block as that function, the host prefix read
  back, the blocks assembled into the array, the reference's stages composed, and the ranges read off the precondition.
-/
import proofs.«417366_j55387898250014_1_alg».proof.Defs
import proofs.«417366_j55387898250014_1_alg».proof.Proof.Gen.Kernel
import proofs.«417366_j55387898250014_1_alg».proof.Proof.Gen.Kernel.Skeleton
import proofs.«417366_j55387898250014_1_alg».proof.Proof.Gen.Kernel.Launch
import proofs.«417366_j55387898250014_1_alg».proof.Proof.Gen.Kernel.Points
import proofs.«417366_j55387898250014_1_alg».proof.Proof.Gen.Kernel.Frame
import proofs.«417366_j55387898250014_1_alg».proof.Proof.Gen.KernelIdeal
import proofs.«417366_j55387898250014_1_alg».proof.Proof.Gen.KernelIdeal.Skeleton
import proofs.«417366_j55387898250014_1_alg».proof.Proof.Gen.KernelIdeal.Launch
import proofs.«417366_j55387898250014_1_alg».proof.Proof.Gen.KernelIdeal.Points
import proofs.«417366_j55387898250014_1_alg».proof.Proof.Gen.KernelIdeal.Frame
import proofs.«417366_j55387898250014_1_alg».proof.Proof.Gen.ReferenceIdeal
import proofs.«417366_j55387898250014_1_alg».proof.Proof.Gen.Pre_finite_inputs
import proofs.«417366_j55387898250014_1_alg».proof.Proof.Gen.KernelIdeal.Value
import proofs.«417366_j55387898250014_1_alg».proof.Proof.Gen.ReferenceIdeal.Run
import proofs.«417366_j55387898250014_1_alg».proof.Proof.Gen.ReferenceIdeal.Read
import proofs.«417366_j55387898250014_1_alg».proof.Proof.KernelValue
import proofs.«417366_j55387898250014_1_alg».proof.Proof.RefValue
import proofs.«417366_j55387898250014_1_alg».proof.Proof.PreRange
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with the edge update of the arguments: the kernel's 250 blocks assemble into it, and the reference's
    last stage is it, entry by entry. -/
theorem algebraic : Cert.algebraic_KernelIdeal_ReferenceIdeal := by
  intro m ρ m' ρ' hpre hagree
  -- every entry of both index vectors is in range
  have hr := fun c : Dev Cert.KernelIdeal.nD => Cert.EdgeUpdate.PreRange.ranges_of_pre _ _ _ _ _ _ _ _ _ _ _ (hpre c)
  refine ⟨_, Cert.EdgeUpdate.KernelValue.run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.EdgeUpdate.Ref.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
